-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S1x8192 .f32) (main_arg1 : FVec F S8192x8192 .f32) (main_arg2 : FVec F S8192 .f32) (main_arg3 : FVec F S8192 .f32) (main_arg4 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S1x8192 : Shape := ⟨2, ![1, 8192]⟩
abbrev S8192x8192 : Shape := ⟨2, ![8192, 8192]⟩
abbrev S8192 : Shape := ⟨1, ![8192]⟩
abbrev S128x8192 : Shape := ⟨2, ![128, 8192]⟩
abbrev S1x128 : Shape := ⟨2, ![1, 128]⟩

abbrev nBuf : Space → Nat
  | .hbm => 10
  | .vmem => 11
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S8192, .f32⟩
  | .local _ .vmem, ⟨0, _⟩ => ⟨S1x8192, .f32⟩
  | .local _ .vmem, ⟨1, _⟩ => ⟨S128x8192, .f32⟩
  | .local _ .vmem, ⟨2, _⟩ => ⟨S128x8192, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S1x8192 : S8192.ShapeCasts S1x8192
  inb_S128x8192_S128x8192_0_0 : ∀ a, (![0, 0] : Fin 2 → Nat) a + S128x8192.size a ≤ S128x8192.size a
  h_S128x8192 : 0 < S128x8192.numel
  natLt_1_32 : 1 < 32
  bitsLt_bf16_f32 : FTy.bits .bf16 < FTy.bits .f32
  inb_S1x8192_S1x8192_0_0 : ∀ a, (![0, 0] : Fin 2 → Nat) a + S1x8192.size a ≤ S1x8192.size a
  h_S1x8192 : 0 < S1x8192.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x8192_S8192 : S1x8192.ShapeCasts S8192
  dot_S1x8192_S128x8192_S1x128_1_1_0_0_n_n_wf : DotDims.WF S1x8192 S128x8192 S1x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .f32 = 32 ∨ (Rect.block (s := S1x8192) S1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x8192.size a
  hwx0_2 : ∀ i : grid0.Coords, EltTy.bits .f32 = 32 ∨ (Rect.block (s := S1x8192) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x8192.size a
  hwx0_3 : ∀ i : grid0.Coords, EltTy.bits .f32 = 32 ∨ (Rect.block (s := S1x8192) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x8192.size a
  hwx0_4 : ∀ i : grid0.Coords, EltTy.bits .f32 = 32 ∨ (Rect.block (s := S1x8192) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x8192.size a
  hwx0_5 : ∀ i : grid0.Coords, EltTy.bits .f32 = 32 ∨ (Rect.block (s := S1x8192) S1x128.size (cc0_transform_5 i) (hinb0_5 i)).WholeWords (EltTy.packing .f32)

variable [Facts₀]

def dot_S1x8192_S128x8192_S1x128_1_1_0_0_n_n : DotDims S1x8192 S128x8192 S1x128 where
  lhsContracting := [1]
  rhsContracting := [1]
  lhsNonContracting := [0]
  rhsNonContracting := [0]
  lhsBatch := []
  rhsBatch := []
  wf := dot_S1x8192_S128x8192_S1x128_1_1_0_0_n_n_wf

abbrev win0_0 : Pipeline.Window sig grid0 :=
  Pipeline.Window.ofSpec (Memref.whole main_arg0) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S8192x8192, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S8192, .i1⟩
  | .hbm, ⟨15, _⟩ => ⟨S8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S8192x8192_S8192x8192_1_0 : S8192x8192.Transposes [1, 0] S8192x8192
  shapeCasts_S1x8192_S8192 : S1x8192.ShapeCasts S8192
  dot_S1x8192_S8192x8192_S1x8192_1_0_0_1_n_n_wf : DotDims.WF S1x8192 S8192x8192 S1x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf

class Facts : Prop extends Facts₀ where

variable [Facts]
-- ==== Proof.Neuron.lean ====
/-
  One step of a layer of 8192 threshold neurons, on the extended reals.

  A synapse from input k to neuron o carries a state; it conducts (weight one) exactly when the state exceeds fifty, and
  otherwise has weight zero. The current into neuron o is the sum over the 8192 inputs of the incoming spike times that
  weight. The neuron's potential is its membrane value plus the current, plus its noise (in that grouping), and it
  fires — the result is one, else zero — exactly when the potential reaches its threshold.

  Nothing here needs the inputs finite: both programs compute this very expression, one sum in one order, so no law of
  the reals that fails at an infinity is used.
-/
import Idealize.ShloMosaic.Lib.ValueIdx
import Idealize.ShloMosaic.PureOps.Ideal.Laws

noncomputable section

open scoped BigOperators

namespace Cert.Neuron

open Idealize.ShloMosaic Idealize.ShloMosaic.ValueIdx

/-- The state threshold fifty, as the float word both programs carry. -/
abbrev fifty : EReal := Ideal.ofBits .f32 0x42480000#32

/-- A truth value read as a number: zero or one. -/
def bit (b : BitVec 1) : EReal := ((b.toNat : ℝ) : EReal)

/-- A one-bit word widened to 32 bits without sign and then read as a signed integer is still zero or one. -/
theorem bit_widen (b : BitVec 1) : (((b.setWidth 32).toInt : ℝ) : EReal) = bit b := by
  have h : ∀ b : BitVec 1, (b.setWidth 32).toInt = (b.toNat : ℤ) := by decide
  unfold bit
  rw [h b, Int.cast_natCast]

/-- The same, spelt with the conversion the kernel applies: a one-bit word widened without sign to 32 bits and converted
    as a signed integer is the bit as a number. -/
theorem sitofp_widen (b : BitVec 1) : FloatOps.sitofp (F := Ideal) .f32 (b.setWidth 32) = bit b := bit_widen b

/-- The conversion the reference applies, a one-bit word converted as an unsigned integer, is the bit as a number. -/
theorem uitofp_bit (b : BitVec 1) : FloatOps.uitofp (F := Ideal) .f32 b = bit b := rfl

/-- The weight of a synapse: one when its state exceeds fifty, else zero. -/
def weight (s : EReal) : EReal := bit (Ideal.cmp .ogt s fifty)

/-- The current into neuron `o`: the incoming spikes (row `r` of the one-row spike array) summed over the conducting
    synapses of that neuron. -/
def current (x : (⟨2, ![1, 8192]⟩ : Shape).Idx → EReal) (syn : (⟨2, ![8192, 8192]⟩ : Shape).Idx → EReal)
    (r : Fin 1) (o : Fin 8192) : EReal :=
  ∑ k : Fin 8192, x (ix2 r k) * weight (syn (ix2 o k))

/-- Whether a neuron fires: membrane plus current, plus noise, reaches the threshold. -/
def fires (mem cur noise thr : EReal) : EReal := bit (Ideal.cmp .oge ((mem + cur) + noise) thr)

/-- The layer's spikes laid out as one row of 8192, from the membrane values, thresholds and noise laid out the same way. -/
def spikesRow (x : (⟨2, ![1, 8192]⟩ : Shape).Idx → EReal) (syn : (⟨2, ![8192, 8192]⟩ : Shape).Idx → EReal)
    (mem thr noise : (⟨2, ![1, 8192]⟩ : Shape).Idx → EReal) : (⟨2, ![1, 8192]⟩ : Shape).Idx → EReal :=
  fun i => fires (mem i) (current x syn (i 0) (i 1)) (noise i) (thr i)

theorem spikesRow_apply (x : (⟨2, ![1, 8192]⟩ : Shape).Idx → EReal) (syn : (⟨2, ![8192, 8192]⟩ : Shape).Idx → EReal)
    (mem thr noise : (⟨2, ![1, 8192]⟩ : Shape).Idx → EReal) (r : Fin 1) (o : Fin 8192) :
    spikesRow x syn mem thr noise (ix2 r o)
      = fires (mem (ix2 r o)) (current x syn r o) (noise (ix2 r o)) (thr (ix2 r o)) := rfl

/-- The layer's spikes as a vector of 8192, from the membrane values, thresholds and noise as vectors. -/
def spikes (x : (⟨2, ![1, 8192]⟩ : Shape).Idx → EReal) (syn : (⟨2, ![8192, 8192]⟩ : Shape).Idx → EReal)
    (mem thr noise : (⟨1, ![8192]⟩ : Shape).Idx → EReal) : (⟨1, ![8192]⟩ : Shape).Idx → EReal :=
  fun i => fires (mem i) (current x syn 0 (i 0)) (noise i) (thr i)

theorem spikes_apply (x : (⟨2, ![1, 8192]⟩ : Shape).Idx → EReal) (syn : (⟨2, ![8192, 8192]⟩ : Shape).Idx → EReal)
    (mem thr noise : (⟨1, ![8192]⟩ : Shape).Idx → EReal) (o : Fin 8192) :
    spikes x syn mem thr noise (ix1 o) = fires (mem (ix1 o)) (current x syn 0 o) (noise (ix1 o)) (thr (ix1 o)) := rfl

end Cert.Neuron

end
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.Body.lean ====
/-
  The kernel's body at one entry. From a block of 128 rows of synapse states, the whole row of incoming spikes, and the
  128 membrane values, noise values and thresholds of those neurons, the body stores, at column q, whether neuron q of the
  block fires: the synapse states are compared with fifty and the truth values turned into numbers, the product of the
  spike row with those weights (rows against rows, into zero) is the current, and the comparison of membrane plus current
  plus noise with the threshold, again turned into a number, is the result. The narrowing of both factors to a shorter
  float format is the identity on the extended reals.
-/
import proofs.«128866_j54434415510063_1_alg».proof.Proof.Gen.KernelIdeal.Skeleton
import proofs.«128866_j54434415510063_1_alg».proof.Proof.Neuron
import proofs.«128866_j54434415510063_1_alg».proof.Proof.LibRowDot
import Idealize.ShloMosaic.Lib.Pipeline.Value
import Idealize.ShloMosaic.Lib.ValueIdx
import Idealize.ShloMosaic.PureOps.Ideal.Laws

noncomputable section

open scoped BigOperators

namespace Cert.Neuron.Body

open Idealize.ShloMosaic Idealize.ShloMosaic.ValueIdx Cert.KernelIdeal Cert.KernelIdeal.Gen Cert.Neuron

/-- The spike row against a block of weight rows, into the zero accumulator: entry (p, q) is the sum over the inputs of
    spike times weight. -/
theorem rows_apply (A : FVec Ideal S1x8192 .bf16) (B : FVec Ideal S128x8192 .bf16) (p : Fin 1) (q : Fin 128) :
    matmul dot_S1x8192_S128x8192_S1x128_1_1_0_0_n_n none A B (constant S1x128 .f32 0x00000000#32) (ix2 p q)
      = ∑ c : Fin 8192, A (ix2 p c) * B (ix2 q c) :=
  Cert.RowDot.matmul_rowDot_apply dot_S1x8192_S128x8192_S1x128_1_1_0_0_n_n_wf none A B p q

/-- What the body stores at column `q`: whether neuron `q` of the block fires. -/
theorem pay_apply (syn : FVec Ideal S128x8192 .f32) (x : FVec Ideal S1x8192 .f32) (mem noise thr : FVec Ideal S1x128 .f32)
    (p : Fin 1) (q : Fin 128) :
    k0_pay1 (F := Ideal) syn x mem noise thr (ix2 p q)
      = fires (mem (ix2 p q)) (∑ c : Fin 8192, x (ix2 p c) * weight (syn (ix2 q c))) (noise (ix2 p q)) (thr (ix2 p q)) := by
  unfold k0_pay1
  simp only [shapeCast_self]
  rw [sitofp_apply, extui_apply, cmpf_apply, sitofp_widen, addf_apply, addf_apply, rows_apply]
  simp only [truncf_apply, sitofp_apply, extui_apply, cmpf_apply, sitofp_widen, broadcast_apply]
  rfl

/-- The same with every operand of the body read off the arrays it is a block of: when the spike row is the arrays' row `p`,
    row `q` of the synapse block is row `o` of the synapse states, and entry (p, q) of the membrane, noise and threshold
    blocks is entry (p, o) of their rows, the body stores at (p, q) the spike of neuron `o`. -/
theorem pay_eq (syn : FVec Ideal S128x8192 .f32) (x : FVec Ideal S1x8192 .f32) (mem noise thr : FVec Ideal S1x128 .f32)
    (X : S1x8192.Idx → EReal) (SYN : S8192x8192.Idx → EReal) (MEM THR NOISE : S1x8192.Idx → EReal)
    (p : Fin 1) (q : Fin 128) (o : Fin 8192)
    (hx : ∀ k : Fin 8192, x (ix2 p k) = X (ix2 p k)) (hsyn : ∀ k : Fin 8192, syn (ix2 q k) = SYN (ix2 o k))
    (hmem : mem (ix2 p q) = MEM (ix2 p o)) (hnoise : noise (ix2 p q) = NOISE (ix2 p o)) (hthr : thr (ix2 p q) = THR (ix2 p o)) :
    k0_pay1 (F := Ideal) syn x mem noise thr (ix2 p q) = spikesRow X SYN MEM THR NOISE (ix2 p o) := by
  rw [pay_apply, spikesRow_apply, hmem, hnoise, hthr]
  unfold current
  simp only [hx, hsyn]

end Cert.Neuron.Body

end
-- ==== Proof.Blocks.lean ====
/-
  From the grid's blocks to the whole row of spikes. The grid has 64 points; point t handles neurons 128·t … 128·t + 127.
  It reads the whole spike row, rows 128·t … 128·t + 127 of the synapse states, and columns 128·t … 128·t + 127 of the
  membrane, threshold and noise rows, and writes columns 128·t … 128·t + 127 of the result row. So what point t writes is
  block t of ONE function of the arrays as the region finds them — the layer's spikes laid out as a row — and since the 64
  blocks tile the row, the result row ends holding that function.
-/
import proofs.«128866_j54434415510063_1_alg».proof.Proof.Gen.KernelIdeal.Frame
import proofs.«128866_j54434415510063_1_alg».proof.Proof.Body
import Idealize.ShloMosaic.Lib.Pipeline.Value
import Idealize.ShloMosaic.Lib.ValueIdx

noncomputable section

open scoped BigOperators

namespace Cert.Neuron.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Neuron

variable (m : (ℓ : Loc nD τ sig) → Buf (Elt Ideal) ℓ)

theorem origin : (![0, 0] : Fin 2 → Nat) = fun _ => 0 := funext fun a => by fin_cases a <;> rfl

/-- The printed index maps over the grid: the spike row's block never moves; point t takes block t of the synapse rows
    and block t of the columns of each one-row array. -/
theorem block_of_point : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The spike row's block at any point is the whole row. -/
theorem spikes_block (c : Dev nD) (t : Fin cfg0.N) (r : Fin 1) (k : Fin 8192) :
    (iblk m c 0 t : Vec Ideal S1x8192 .f32) (ix2 r k) = (V m c main_arg0 : S1x8192.Idx → EReal) (ix2 r k) := by
  obtain ⟨e0, e1, -⟩ := block_of_point t
  unfold iblk
  rw [View.read_apply]
  show V m c main_arg0 _ = V m c main_arg0 _
  congr 1
  funext a
  apply Fin.ext
  match a with
  | ⟨0, _⟩ => show win0_0.index t (0 : Fin 2) * 1 + 1 * r.val = r.val; omega
  | ⟨1, _⟩ => show win0_0.index t (1 : Fin 2) * 8192 + 1 * k.val = k.val; omega

/-- Row q of the synapse block at point t is row 128·t + q of the synapse states. -/
theorem synapse_block (c : Dev nD) (t : Fin cfg0.N) (q : Fin 128) (k : Fin 8192) (o : Fin 8192) (ho : o.val = t.val * 128 + q.val) :
    (iblk m c 1 t : Vec Ideal S128x8192 .f32) (ix2 q k) = (V m c main_arg1 : S8192x8192.Idx → EReal) (ix2 o k) := by
  obtain ⟨-, -, e0, e1, -⟩ := block_of_point t
  unfold iblk
  rw [View.read_apply]
  show V m c main_arg1 _ = V m c main_arg1 _
  congr 1
  funext a
  apply Fin.ext
  match a with
  | ⟨0, _⟩ => show win0_1.index t (0 : Fin 2) * 128 + 1 * q.val = o.val; omega
  | ⟨1, _⟩ => show win0_1.index t (1 : Fin 2) * 8192 + 1 * k.val = k.val; omega

/-- Column q of the membrane block at point t is column 128·t + q of the membrane row. -/
theorem membrane_block (c : Dev nD) (t : Fin cfg0.N) (r : Fin 1) (q : Fin 128) (o : Fin 8192) (ho : o.val = t.val * 128 + q.val) :
    (iblk m c 2 t : Vec Ideal S1x128 .f32) (ix2 r q) = (V m c main_v0 : S1x8192.Idx → EReal) (ix2 r o) := by
  obtain ⟨-, -, -, -, e0, e1, -⟩ := block_of_point t
  unfold iblk
  rw [View.read_apply]
  show V m c main_v0 _ = V m c main_v0 _
  congr 1
  funext a
  apply Fin.ext
  match a with
  | ⟨0, _⟩ => show win0_2.index t (0 : Fin 2) * 1 + 1 * r.val = r.val; omega
  | ⟨1, _⟩ => show win0_2.index t (1 : Fin 2) * 128 + 1 * q.val = o.val; omega

/-- Column q of the threshold block at point t is column 128·t + q of the threshold row. -/
theorem threshold_block (c : Dev nD) (t : Fin cfg0.N) (r : Fin 1) (q : Fin 128) (o : Fin 8192) (ho : o.val = t.val * 128 + q.val) :
    (iblk m c 3 t : Vec Ideal S1x128 .f32) (ix2 r q) = (V m c main_v1 : S1x8192.Idx → EReal) (ix2 r o) := by
  obtain ⟨-, -, -, -, -, -, e0, e1, -⟩ := block_of_point t
  unfold iblk
  rw [View.read_apply]
  show V m c main_v1 _ = V m c main_v1 _
  congr 1
  funext a
  apply Fin.ext
  match a with
  | ⟨0, _⟩ => show win0_3.index t (0 : Fin 2) * 1 + 1 * r.val = r.val; omega
  | ⟨1, _⟩ => show win0_3.index t (1 : Fin 2) * 128 + 1 * q.val = o.val; omega

/-- Column q of the noise block at point t is column 128·t + q of the noise row. -/
theorem noise_block (c : Dev nD) (t : Fin cfg0.N) (r : Fin 1) (q : Fin 128) (o : Fin 8192) (ho : o.val = t.val * 128 + q.val) :
    (iblk m c 4 t : Vec Ideal S1x128 .f32) (ix2 r q) = (V m c main_v2 : S1x8192.Idx → EReal) (ix2 r o) := by
  obtain ⟨-, -, -, -, -, -, -, -, e0, e1, -⟩ := block_of_point t
  unfold iblk
  rw [View.read_apply]
  show V m c main_v2 _ = V m c main_v2 _
  congr 1
  funext a
  apply Fin.ext
  match a with
  | ⟨0, _⟩ => show win0_4.index t (0 : Fin 2) * 1 + 1 * r.val = r.val; omega
  | ⟨1, _⟩ => show win0_4.index t (1 : Fin 2) * 128 + 1 * q.val = o.val; omega

/-- The layer's spikes as a row, of the arrays as the region finds them. -/
abbrev row (c : Dev nD) : S1x8192.Idx → EReal :=
  spikesRow (V m c main_arg0) (V m c main_arg1) (V m c main_v0) (V m c main_v1) (V m c main_v2)

/-- What the body stores at entry `y` of its block at point t is the spike of the neuron at column 128·t + (y's column). -/
theorem stored_at (c : Dev nD) (t : Fin cfg0.N) (y : S1x128.Idx) (i : S1x8192.Idx)
    (hi0 : (i 0).val = (y 0).val) (hi1 : (i 1).val = t.val * 128 + (y 1).val) :
    k0_pay1 (F := Ideal) (iblk m c 1 t) (iblk m c 0 t) (iblk m c 2 t) (iblk m c 4 t) (iblk m c 3 t) y = row m c i := by
  obtain ⟨p, q, rfl⟩ : ∃ (p : Fin 1) (q : Fin 128), y = ix2 p q := ⟨y 0, y 1, eq_ix2 y⟩
  obtain ⟨r, o, rfl⟩ : ∃ (r : Fin 1) (o : Fin 8192), i = ix2 r o := ⟨i 0, i 1, eq_ix2 i⟩
  obtain rfl : r = p := Fin.ext hi0
  have ho : o.val = t.val * 128 + q.val := hi1
  exact Body.pay_eq (iblk m c 1 t) (iblk m c 0 t) (iblk m c 2 t) (iblk m c 4 t) (iblk m c 3 t)
    (V m c main_arg0) (V m c main_arg1) (V m c main_v0) (V m c main_v1) (V m c main_v2) r q o
    (fun k => spikes_block m c t r k) (fun k => synapse_block m c t q k o ho)
    (membrane_block m c t r q o ho) (noise_block m c t r q o ho) (threshold_block m c t r q o ho)

/-- What point t writes back is block t of the row of spikes. -/
theorem flushed_eq (c : Dev nD) (t : Fin cfg0.N) :
    (dats m 0 c).flushed 5 t = ((cfg0.win 5).blk t).view.read (Elt Ideal) (row m c) := by
  show (cfg0.win 5).cut (grid0.coords t) ((dats m 0 c).after 5 t) = _
  rw [after0_5]
  unfold out0_5
  rw [View.canon_unit_zero origin]
  simp only [View.ld_unit_zero (S := S128x8192) origin, View.ld_unit_zero (S := S1x8192) origin, View.ld_unit_zero (S := S1x128) origin]
  obtain ⟨-, -, -, -, -, -, -, -, -, -, e0, e1⟩ := block_of_point t
  funext j
  show k0_pay1 (F := Ideal) (iblk m c 1 t) (iblk m c 0 t) (iblk m c 2 t) (iblk m c 4 t) (iblk m c 3 t) j
    = row m c (((cfg0.win 5).blk t).view.emb j)
  refine stored_at m c t j _ ?_ ?_
  · show win0_5.index t (0 : Fin 2) * 1 + 1 * (j 0).val = (j 0).val; omega
  · show win0_5.index t (1 : Fin 2) * 128 + 1 * (j 1).val = t.val * 128 + (j 1).val; omega

/-- An index of the result row is in point t's block iff each coordinate is in the block's range on its axis. -/
theorem mem_block (t : Fin cfg0.N) (i : S1x8192.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v3).slice (win0_5.rect t)).set ↔ _
  rw [View.set_slice_whole, Rect.mem_set_unit]
  exact Iff.rfl

/-- The 64 blocks tile the row: column o lies in the block of point o / 128. -/
theorem tiled (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : grid0.N = 64 := N_0
  have ht : (i 1).val / 128 < cfg0.N := by show (i 1).val / 128 < grid0.N; rw [hN]; omega
  refine ⟨⟨(i 1).val / 128, ht⟩, flush0_5 _, ?_⟩
  obtain ⟨-, -, -, -, -, -, -, -, -, -, e0, e1⟩ := block_of_point ⟨(i 1).val / 128, ht⟩
  rw [mem_block]
  intro a
  match a with
  | ⟨0, _⟩ =>
    show win0_5.index ⟨(i 1).val / 128, ht⟩ (0 : Fin 2) * 1 ≤ (i 0).val ∧ (i 0).val < win0_5.index ⟨(i 1).val / 128, ht⟩ (0 : Fin 2) * 1 + 1
    rw [e0]; omega
  | ⟨1, _⟩ =>
    show win0_5.index ⟨(i 1).val / 128, ht⟩ (1 : Fin 2) * 128 ≤ (i 1).val ∧ (i 1).val < win0_5.index ⟨(i 1).val / 128, ht⟩ (1 : Fin 2) * 128 + 128
    rw [e1]; show (i 1).val / 128 * 128 ≤ (i 1).val ∧ (i 1).val < (i 1).val / 128 * 128 + 128; omega

/-- The result row after the run is the row of spikes. -/
theorem final (c : Dev nD) : (dats m 0 c).arrAt 5 cfg0.N = row m c :=
  (dats m 0 c).arrAt_eq_of_cover 5 (row m c) (fun t _ => flushed_eq m c t) tiled

end Cert.Neuron.Blocks

end
-- ==== Proof.KernelRun.lean ====
/-
  The kernel program around its region. Before the region the membrane, threshold and noise vectors are relaid as rows
  of 8192; after it the result row is relaid as a vector. A vector relaid as a one-row array has at (0, o) what the vector
  has at o, and the other way round, so the row of spikes computed from the relaid vectors, relaid back, is the layer's
  spikes computed from the vectors themselves: that is what the program's result buffer holds after every run.
-/
import proofs.«128866_j54434415510063_1_alg».proof.Proof.Gen.KernelIdeal.Frame
import proofs.«128866_j54434415510063_1_alg».proof.Proof.Blocks
import Idealize.ShloMosaic.Lib.Pipeline.Value
import Idealize.ShloMosaic.Lib.StableHlo.Run
import Idealize.ShloMosaic.Lib.ValueIdx

noncomputable section

open scoped BigOperators

namespace Cert.Neuron.KernelRun

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Neuron

variable (m : (ℓ : Loc nD τ sig) → Buf (Elt Ideal) ℓ) (ρ : Dev nD → PrngReg)

/-- A vector relaid as a one-row array: entry (r, o) of the row is entry o of the vector. -/
theorem as_row (v : S8192.Idx → EReal) (r : Fin 1) (o : Fin 8192) :
    shapeCast S1x8192 v shapeCasts_S8192_S1x8192 (ix2 r o) = v (ix1 o) :=
  shapeCast_apply v shapeCasts_S8192_S1x8192 (ix2 r o) (ix1 o) (by
    rw [Shape.rowMajor_val_two, Shape.rowMajor_val_one]
    show o.val = r.val * 8192 + o.val
    have := r.isLt; omega)

/-- A one-row array relaid as a vector: entry o of the vector is entry (0, o) of the row. -/
theorem as_vector (v : S1x8192.Idx → EReal) (o : Fin 8192) :
    shapeCast S8192 v shapeCasts_S1x8192_S8192 (ix1 o) = v (ix2 0 o) :=
  shapeCast_apply v shapeCasts_S1x8192_S8192 (ix1 o) (ix2 0 o) (by
    rw [Shape.rowMajor_val_two, Shape.rowMajor_val_one]
    show (0 : Fin 1).val * 8192 + o.val = o.val
    simp)

/-- The region finds the membrane vector relaid as a row, -/
theorem membrane_row (c : Dev nD) :
    (V m c main_v0 : S1x8192.Idx → EReal) = shapeCast S1x8192 (m ((c : Thread nD τ).loc main_arg2)) shapeCasts_S8192_S1x8192 := by
  show StableHlo.after hostOps0 (fun b => m (c, b)) (Proc.devRef .tc main_v0) = _
  after_results
  rfl
/-- the threshold vector relaid as a row, -/
theorem threshold_row (c : Dev nD) :
    (V m c main_v1 : S1x8192.Idx → EReal) = shapeCast S1x8192 (m ((c : Thread nD τ).loc main_arg3)) shapeCasts_S8192_S1x8192 := by
  show StableHlo.after hostOps0 (fun b => m (c, b)) (Proc.devRef .tc main_v1) = _
  after_results
  rfl
/-- and the noise vector relaid as a row. -/
theorem noise_row (c : Dev nD) :
    (V m c main_v2 : S1x8192.Idx → EReal) = shapeCast S1x8192 (m ((c : Thread nD τ).loc main_arg4)) shapeCasts_S8192_S1x8192 := by
  show StableHlo.after hostOps0 (fun b => m (c, b)) (Proc.devRef .tc main_v2) = _
  after_results
  rfl

/-- The row of spikes the region leaves, relaid as a vector, is the layer's spikes of the argument arrays. -/
theorem row_as_vector (c : Dev nD) :
    shapeCast S8192 (Blocks.row m c) shapeCasts_S1x8192_S8192
      = spikes (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨o, rfl⟩ : ∃ o : Fin 8192, i = ix1 o := ⟨i 0, eq_ix1 i⟩
  rw [as_vector, spikes_apply]
  unfold Blocks.row
  rw [spikesRow_apply, membrane_row, threshold_row, noise_row, as_row, as_row, as_row, V_main_arg0, V_main_arg1]

/-- What the program's result buffer holds after the lines that follow the region. -/
theorem result_eq (c : Dev nD) :
    Pipeline.afterTail₀ cfgs (dats m) 0 (V0 m) [hostOps1] c main_v4
      = spikes (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  refine Eq.trans ?_ (row_as_vector m c)
  show shapeCast S8192 _ shapeCasts_S1x8192_S8192 = shapeCast S8192 _ shapeCasts_S1x8192_S8192
  congr 1
  exact (Pipeline.withArrays_arr spec0 launch0.win.arr_inj c _ _ 5).trans (Blocks.final m c)

/-- Every weakly fair execution of the kernel program terminates with its result buffer at the layer's spikes of the
    argument arrays, and the argument arrays unchanged. -/
theorem run : θ_run defs (onTc (τ := τ) (main (F := Ideal))) ⟨m, fun _ => 0, ρ⟩ fun r => ∀ c : Dev nD,
      r.2.mem ((c.tc : Thread nD τ).loc main_v4)
        = spikes (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Neuron.KernelRun

end
-- ==== Proof.RefSide.lean ====
/-
  The reference at one neuron. Its program compares every synapse state with fifty and turns the truth values into
  numbers, transposes that matrix, multiplies the spike row with it, relays the one-row product as a vector, adds the
  membrane vector in front and the noise vector behind, compares with the threshold vector and turns the truth values into
  numbers. Read at neuron o: entry (k, o) of the transposed weights is the weight of the synapse from input k to neuron o,
  so the product's entry (0, o) is the current into neuron o, and the result at o is whether neuron o fires.
-/
import proofs.«128866_j54434415510063_1_alg».proof.Proof.Gen.ReferenceIdeal.Run
import proofs.«128866_j54434415510063_1_alg».proof.Proof.Gen.ReferenceIdeal.Read
import proofs.«128866_j54434415510063_1_alg».proof.Proof.Neuron
import Idealize.ShloMosaic.Lib.ValueIdx

noncomputable section

open scoped BigOperators

namespace Cert.Neuron.RefSide

open Idealize.ShloMosaic Idealize.ShloMosaic.ValueIdx
open Cert.ReferenceIdeal Cert.ReferenceIdeal.Gen Cert.ReferenceIdeal.Read Cert.Neuron

/-- Entry (k, o) of the transposed weight matrix is the weight of the synapse from input k to neuron o. -/
theorem weight_at (syn : S8192x8192.Idx → EReal) (o k : Fin 8192) :
    val_main_v3 (F := Ideal) syn (ridx_main_v4 (idx_main_v5 (ix1 o)) k) = weight (syn (ix2 o k)) := by
  have hi : idx_main_v3 (ridx_main_v4 (idx_main_v5 (ix1 o)) k) = ix2 o k := funext fun a => Fin.ext (by
    match a with
    | ⟨0, _⟩ => exact Nat.mod_eq_of_lt o.isLt
    | ⟨1, _⟩ => rfl)
  rw [val_main_v3_apply, val_main_v2_apply, val_main_v1_apply, val_main_v0_apply, val_main_cst_apply, hi]
  rfl

/-- The spike the product reads for input k is entry (0, k) of the spike row. -/
theorem spike_at (o k : Fin 8192) : lidx_main_v4 (idx_main_v5 (ix1 o)) k = ix2 0 k :=
  funext fun a => Fin.ext (by
    match a with
    | ⟨0, _⟩ => rfl
    | ⟨1, _⟩ => rfl)

/-- The reference's result is the layer's spikes of its arguments. -/
theorem result_eq (x : S1x8192.Idx → EReal) (syn : S8192x8192.Idx → EReal) (mem thr noise : S8192.Idx → EReal) :
    val_main_v9 (F := Ideal) x syn mem thr noise = spikes x syn mem thr noise := by
  funext i
  obtain ⟨o, rfl⟩ : ∃ o : Fin 8192, i = ix1 o := ⟨i 0, eq_ix1 i⟩
  rw [val_main_v9_apply, val_main_v8_apply, val_main_v7_apply, val_main_v6_apply, val_main_v5_apply, val_main_v4_apply,
    spikes_apply]
  simp only [spike_at, weight_at]
  rfl

end Cert.Neuron.RefSide

end
-- ==== Proof.lean ====
/-
  A layer of 8192 threshold neurons, one step: the kernel against its reference on the extended reals.

  Both programs compute, for each neuron o, whether  (membrane o + current o) + noise o  reaches  threshold o, as the
  number one or zero, where current o is the sum over the 8192 inputs k of  spike k · weight (o, k)  and the weight is one
  when the synapse state exceeds fifty and zero otherwise (Proof/Neuron.lean). The kernel does it 128 neurons at a time:
  a product of the spike row with a block of weight rows, rows against rows, into zero (Proof/Body.lean), block by block
  over a grid of 64 points whose blocks tile the result row (Proof/Blocks.lean), between lines that relay three vectors as
  rows and the result row as a vector (Proof/KernelRun.lean). The reference transposes the whole weight matrix and
  multiplies once (Proof/RefSide.lean). The two are the same expression at every neuron — the same sum in the same order,
  the same grouping of the two additions, the same comparisons against the same constant — so the inputs' finiteness is
  never used. The kernel narrows both factors of its product to a shorter float format, which is the identity on the
  extended reals; the idealization rewrote no operation, so there is nothing to preserve.

  The kernel's two frames are the generated ones; the reference's frame is its generated run with the result dropped.
-/
import proofs.«128866_j54434415510063_1_alg».proof.Defs
import proofs.«128866_j54434415510063_1_alg».proof.Proof.Gen.Kernel
import proofs.«128866_j54434415510063_1_alg».proof.Proof.Gen.Kernel.Skeleton
import proofs.«128866_j54434415510063_1_alg».proof.Proof.Gen.Kernel.Launch
import proofs.«128866_j54434415510063_1_alg».proof.Proof.Gen.Kernel.Points
import proofs.«128866_j54434415510063_1_alg».proof.Proof.Gen.Kernel.Frame
import proofs.«128866_j54434415510063_1_alg».proof.Proof.Gen.KernelIdeal
import proofs.«128866_j54434415510063_1_alg».proof.Proof.Gen.KernelIdeal.Skeleton
import proofs.«128866_j54434415510063_1_alg».proof.Proof.Gen.KernelIdeal.Launch
import proofs.«128866_j54434415510063_1_alg».proof.Proof.Gen.KernelIdeal.Points
import proofs.«128866_j54434415510063_1_alg».proof.Proof.Gen.KernelIdeal.Frame
import proofs.«128866_j54434415510063_1_alg».proof.Proof.Gen.ReferenceIdeal
import proofs.«128866_j54434415510063_1_alg».proof.Proof.Gen.ReferenceIdeal.Run
import proofs.«128866_j54434415510063_1_alg».proof.Proof.Gen.ReferenceIdeal.Read
import proofs.«128866_j54434415510063_1_alg».proof.Proof.Gen.Pre_finite_inputs
import proofs.«128866_j54434415510063_1_alg».proof.Proof.KernelRun
import proofs.«128866_j54434415510063_1_alg».proof.Proof.RefSide
import Idealize.ShloMosaic.Adequacy
import Idealize.ShloMosaic.Init

noncomputable section

namespace Cert.Proof

open Idealize.ShloMosaic Idealize.SL.Sem Cert.Neuron

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer's spikes of those arguments in
    their result buffers. -/
theorem algebraic : Cert.algebraic_KernelIdeal_ReferenceIdeal := by
  intro m ρ m' ρ' _ hagree
  refine ⟨_, KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq (F := Ideal) _ _ _ _ _).trans ?_
  rw [RefSide.result_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
